-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  main_v3
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩

abbrev nBuf : Space → Nat
  | .hbm => 30
  | .vmem => 9
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S16384, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .f32⟩
  | .hbm, ⟨18, _⟩ => ⟨S16384x1, .f32⟩
  | .hbm, ⟨19, _⟩ => ⟨S1x16384, .f32⟩
  | .hbm, ⟨20, _⟩ => ⟨S16384x1, .f32⟩
  | .hbm, ⟨21, _⟩ => ⟨S1x16384, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  reducesTo_S16384_S_d0 : S16384.ReducesTo [0] S_
  h_S_ : 0 < S_.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v12) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S16384x1, .f32⟩
  | .hbm, ⟨17, _⟩ => ⟨S1x16384, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384x16384, .f32⟩
  | .hbm, ⟨26, _⟩ => ⟨S16384x16384, .f32⟩
  | .hbm, ⟨27, _⟩ => ⟨S16384x1, .i1⟩
  | .hbm, ⟨28, _⟩ => ⟨S1x16384, .i1⟩
  | .hbm, ⟨29, _⟩ => ⟨S16384x16384, .i1⟩
  | .hbm, ⟨30, _⟩ => ⟨S16384x16384, .i1⟩
  | .hbm, ⟨31, _⟩ => ⟨S16384x16384, .i1⟩
  | .hbm, ⟨32, _⟩ => ⟨S16384, .i32⟩
  | .hbm, ⟨33, _⟩ => ⟨S_, .i32⟩
  | .hbm, ⟨34, _⟩ => ⟨S_, .i32⟩
  | .hbm, ⟨35, _⟩ => ⟨S16384, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S16384x16384, .f32⟩
  | .hbm, ⟨42, _⟩ => ⟨S16384x16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  natLt_1_32 : 1 < 32
  reducesTo_S16384_S_d0 : S16384.ReducesTo [0] S_
  h_S_ : 0 < S_.numel
  reducesTo_S16384x16384_S_d0_1 : S16384x16384.ReducesTo [0, 1] S_

variable [Facts₀]

class Facts : Prop extends Facts₀ where

variable [Facts]
-- ==== Proof.Tiles.lean ====
/-
  Sums over a square of side 16384 cut into 16 × 16 tiles of side 1024.

  The kernel adds up one 1024 × 1024 tile of pair terms per grid point, the tiles taken in row-major order of a
  16 × 16 grid; the reference adds the whole 16384 × 16384 square at once. Addition of extended reals is commutative
  and associative, so both are the same sum: a row index below 16384 is uniquely 1024·a + p with a < 16 and p < 1024,
  and a grid point t < 256 is uniquely 16·a + b.
-/
import Mathlib.Algebra.BigOperators.Fin
import Mathlib.Algebra.BigOperators.Group.Finset.Basic
import Mathlib.Logic.Equiv.Fin.Basic

namespace Cert.Hinge

/-- Row (or column) 1024·a + p of the square: position p inside tile row a. -/
def tileIdx (a : Fin 16) (p : Fin 1024) : Fin 16384 :=
  ⟨1024 * a.val + p.val, by have := a.isLt; have := p.isLt; omega⟩

/-- Grid point 16·a + b: tile row a, tile column b. -/
def gridPt (a b : Fin 16) : Fin 256 :=
  ⟨16 * a.val + b.val, by have := a.isLt; have := b.isLt; omega⟩

/-- The tile row of a grid point, -/
def tileRow (t : Fin 256) : Fin 16 := ⟨t.val / 16, by have := t.isLt; omega⟩
/-- and its tile column. -/
def tileCol (t : Fin 256) : Fin 16 := ⟨t.val % 16, by omega⟩

theorem tileRow_gridPt (a b : Fin 16) : tileRow (gridPt a b) = a := by
  apply Fin.ext; show (16 * a.val + b.val) / 16 = a.val; have := b.isLt; omega
theorem tileCol_gridPt (a b : Fin 16) : tileCol (gridPt a b) = b := by
  apply Fin.ext; show (16 * a.val + b.val) % 16 = b.val; have := b.isLt; omega

variable {M : Type} [AddCommMonoid M]

/-- A sum over n·m consecutive positions is the sum over n groups of the sums over the m positions of each. -/
theorem sum_groups (n m : ℕ) (g : Fin (n * m) → M) :
    ∑ i, g i = ∑ a : Fin n, ∑ b : Fin m, g (finProdFinEquiv (a, b)) := by
  rw [← finProdFinEquiv.sum_comp, Fintype.sum_prod_type]

/-- A sum over the 16384 rows is the sum over the 16 tile rows of the sums over each tile's 1024 rows. -/
theorem sum_rows (g : Fin 16384 → M) : ∑ i, g i = ∑ a : Fin 16, ∑ p : Fin 1024, g (tileIdx a p) := by
  have h := sum_groups 16 1024 (M := M) g
  rw [h]
  refine Finset.sum_congr rfl fun a _ => Finset.sum_congr rfl fun p _ => congrArg g (Fin.ext ?_)
  show p.val + 1024 * a.val = 1024 * a.val + p.val
  omega

/-- A sum over the 256 grid points is the sum over the tile rows of the sums over the tile columns. -/
theorem sum_grid (g : Fin 256 → M) : ∑ t, g t = ∑ a : Fin 16, ∑ b : Fin 16, g (gridPt a b) := by
  have h := sum_groups 16 16 (M := M) g
  rw [h]
  refine Finset.sum_congr rfl fun a _ => Finset.sum_congr rfl fun b _ => congrArg g (Fin.ext ?_)
  show b.val + 16 * a.val = 16 * a.val + b.val
  omega

/-- THE TILING LAW: the tiles' sums, added over the grid, are the sum over the whole square. -/
theorem sum_tiles (f : Fin 16384 → Fin 16384 → M) :
    ∑ t : Fin 256, ∑ p : Fin 1024, ∑ q : Fin 1024, f (tileIdx (tileRow t) p) (tileIdx (tileCol t) q)
      = ∑ i : Fin 16384, ∑ j : Fin 16384, f i j := by
  rw [sum_grid, sum_rows]
  refine Finset.sum_congr rfl fun a _ => ?_
  -- inside tile row a: bring the row position p outside the tile column b
  rw [Finset.sum_comm]
  refine Finset.sum_congr rfl fun p _ => ?_
  rw [sum_rows]
  refine Finset.sum_congr rfl fun b _ => ?_
  rw [tileRow_gridPt, tileCol_gridPt]

end Cert.Hinge
-- ==== Proof.Loss.lean ====
/-
  The loss both programs compute, as one function of three vectors of length 16384.

  With s the sigmoids of the inputs and P, N the one-bit marks "target is 1" and "target is 0", the loss is the sum
  over all ordered pairs (i, j) of the hinge max(margin − (s i − s j), 0), counted where i is marked by P and j by N,
  divided by the number of such pairs. A mark enters as the extended real 0 or 1 it denotes, so that "counted where"
  is a product and "the number of pairs" is the product of the two counts.
-/
import Idealize.ShloMosaic.PureOps.Ideal

noncomputable section

namespace Cert.Hinge

open Idealize.ShloMosaic

/-- The margin, the binary32 value nearest 0.3: the same word in both programs, so its value is never needed. -/
abbrev margin : EReal := Ideal.ofBits .f32 0x3E99999A#32

/-- The hinge of a pair of scores: how far the first falls short of exceeding the second by the margin. -/
def hinge (a b : EReal) : EReal := max (margin - (a - b)) 0

/-- A one-bit mark as the extended real 0 or 1. -/
def bit (b : BitVec 1) : EReal := ((b.toNat : ℝ) : EReal)

/-- The contribution of the ordered pair (i, j): its hinge where i is marked by P and j by N, else 0. -/
def pairTerm (s : Fin 16384 → EReal) (P N : Fin 16384 → BitVec 1) (i j : Fin 16384) : EReal :=
  hinge (s i) (s j) * (bit (P i) * bit (N j))

/-- The loss: the marked pairs' hinges summed, over the number of marked pairs. -/
def loss (s : Fin 16384 → EReal) (P N : Fin 16384 → BitVec 1) : EReal :=
  Ideal.div (∑ i, ∑ j, pairTerm s P N i j) ((∑ i, bit (P i)) * (∑ j, bit (N j)))

end Cert.Hinge

end
-- ==== Proof.Pieces.lean ====
/-
  One grid point of the kernel, as arithmetic.

  The body's last store writes one word: the accumulator's value (the zero the body has just stored, at the first
  point; what the point before left, elsewhere) plus the sum over the 1024 × 1024 tile of

      max(margin − (s_p − s'_q), 0) · (u_p · v_q),

  where s, u are the point's two column slivers [1024, 1] and s', v its two row slivers [1, 1024]: the slivers are
  broadcast over the tile, the tile is summed along its rows and the row sums down the column. At the ideal values
  both lane sums are plain finite sums and the zero accumulators they start from vanish.
-/
import proofs.«126922_j69672959475956_1_alg».proof.Proof.Gen.KernelIdeal.Frame
import proofs.«126922_j69672959475956_1_alg».proof.Proof.Tiles
import proofs.«126922_j69672959475956_1_alg».proof.Proof.Loss
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.HingeValue

open Cert.Hinge (hinge margin)

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## What one grid point leaves in the accumulator -/

/-- At a point other than the first the body leaves, in the accumulator holding `xo`, the one value its last store writes:
    `xo` plus the tile's sum, as a function of the four input slivers. -/
theorem out_B (c : Dev nD) (i : grid0.Coords) (a2 : Memref sig .tc .vmem S1024x1 .f32) (h2 : a2.IsWhole)
    (a3 : Memref sig .tc .vmem S1x1024 .f32) (h3 : a3.IsWhole) (a4 : Memref sig .tc .vmem S1024x1 .f32) (h4 : a4.IsWhole)
    (a5 : Memref sig .tc .vmem S1x1024 .f32) (h5 : a5.IsWhole) (a6 : Memref sig .tc .vmem S1x1 .f32) (h6 : a6.IsWhole)
    (hc : ¬cond0_0 i) (x0 : Vec F S1024x1 .f32) (x1 : Vec F S1x1024 .f32) (x2 : Vec F S1024x1 .f32) (x3 : Vec F S1x1024 .f32)
    (xo : Vec F S1x1 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1024x1) hz, View.ld_unit_zero (S := S1x1024) hz, View.ld_unit_zero (S := S1x1) hz]

/-- At the first point the body first stores the zero, reads it back, and leaves zero plus the tile's sum. -/
theorem out_A (c : Dev nD) (i : grid0.Coords) (a2 : Memref sig .tc .vmem S1024x1 .f32) (h2 : a2.IsWhole)
    (a3 : Memref sig .tc .vmem S1x1024 .f32) (h3 : a3.IsWhole) (a4 : Memref sig .tc .vmem S1024x1 .f32) (h4 : a4.IsWhole)
    (a5 : Memref sig .tc .vmem S1x1024 .f32) (h5 : a5.IsWhole) (a6 : Memref sig .tc .vmem S1x1 .f32) (h6 : a6.IsWhole)
    (hc : cond0_0 i) (x0 : Vec F S1024x1 .f32) (x1 : Vec F S1x1024 .f32) (x2 : Vec F S1024x1 .f32) (x3 : Vec F S1x1024 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread,
    View.ld_unit_zero (S := S1024x1) hz, View.ld_unit_zero (S := S1x1024) hz, View.ld_unit_zero (S := S1x1) hz]

/-! ## The tile's sum, read as a double sum of extended reals -/

/-- A column sliver broadcast over the tile reads, at (p, q), the sliver at p. -/
theorem bcast_col (v : FVec Ideal S1024x1 .f32) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row sliver broadcast over the tile reads, at (p, q), the sliver at q. -/
theorem bcast_row (v : FVec Ideal S1x1024 .f32) (h : S1x1024.Broadcasts S1024x1024) (p q : Fin 1024) :
    broadcastTo S1024x1024 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The sum along the tile's rows: at row p, the sum over the columns. -/
theorem row_sums (v : FVec Ideal S1024x1024 .f32) (h : S1024x1024.Reduces [1] S1024) (hφ : FKind.Formats .f32)
    (hacc : (0x00000000#32 : BitVec 32) = FKind.add.neutral .f32 hφ) (p : Fin 1024) :
    multiReduction .add [1] S1024 v 0x00000000#32 h hφ hacc (ix1 p) = ∑ q : Fin 1024, v (ix2 p q) := by
  rw [Ideal.multiReduction_add_single]
  refine Finset.sum_congr rfl fun q _ => congrArg v ?_
  funext a
  match a with
  | ⟨0, _⟩ => rfl
  | ⟨1, _⟩ => rfl

/-- The row sums, laid as a column and summed down it: the sum over the rows. -/
theorem col_sum (w : FVec Ideal S1024 .f32) (h1 : S1024.ShapeCasts S1024x1) (h : S1024x1.Reduces [0] S1) (hφ : FKind.Formats .f32)
    (hacc : (0x00000000#32 : BitVec 32) = FKind.add.neutral .f32 hφ) (j : S1.Idx) :
    multiReduction .add [0] S1 (shapeCast S1024x1 w h1) 0x00000000#32 h hφ hacc j = ∑ p : Fin 1024, w (ix1 p) := by
  rw [Ideal.multiReduction_add_single]
  refine Finset.sum_congr rfl fun p _ => ?_
  refine shapeCast_apply w h1 _ (ix1 p) ?_
  rw [Shape.rowMajor_val_two, Shape.rowMajor_val_one]
  have hj : (j 0).val = 0 := by have : (j 0).val < 1 := (j 0).isLt; omega
  show p.val = (h.lift j p 0).val * 1 + (h.lift j p 1).val
  have e0 : (h.lift j p 0).val = p.val := rfl
  have e1 : (h.lift j p 1).val = (j 0).val := rfl
  rw [e0, e1, hj]; omega

/-- THE BODY'S ARITHMETIC at the ideal values: the accumulator's old value plus the sum, over the tile's rows p and
    columns q, of the hinge of the two scores times the two marks. -/
theorem pay2_apply (x0 : Vec Ideal S1024x1 .f32) (x1 : Vec Ideal S1x1024 .f32) (x2 : Vec Ideal S1024x1 .f32)
    (x3 : Vec Ideal S1x1024 .f32) (xo : Vec Ideal S1x1 .f32) (j : S1x1.Idx) :
    k0_pay2 (F := Ideal) x0 x1 x2 x3 xo j
      = xo j + ∑ p : Fin 1024, ∑ q : Fin 1024,
          hinge (x0 (ix2 p (0 : Fin 1))) (x1 (ix2 (0 : Fin 1) q)) * (x2 (ix2 p (0 : Fin 1)) * x3 (ix2 (0 : Fin 1) q)) := by
  unfold k0_pay2
  simp only [shapeCast_self]
  refine (addf_apply _ _ j).trans ?_
  congr 1
  refine (shapeCast_apply _ shapeCasts_S1_S1x1 j (ix1 (0 : Fin 1)) ?_).trans ?_
  · rw [Shape.rowMajor_val_two, Shape.rowMajor_val_one]
    have h0 : (j 0).val = 0 := by have : (j 0).val < 1 := (j 0).isLt; omega
    have h1 : (j 1).val = 0 := by have : (j 1).val < 1 := (j 1).isLt; omega
    show 0 = (j 0).val * 1 + (j 1).val
    rw [h0, h1]
  refine (col_sum _ _ _ _ _ _).trans ?_
  refine Finset.sum_congr rfl fun p _ => ?_
  refine (row_sums _ _ _ _ p).trans ?_
  refine Finset.sum_congr rfl fun q _ => ?_
  simp only [mulf_apply, maximumf_apply, subf_apply, broadcast_apply, bcast_col, bcast_row, hinge, Ideal.ofBits_def,
    Ideal.ofBits_zero_f32]

end Cert.KernelIdeal.HingeValue

end
-- ==== Proof.Marks.lean ====
/-
  One-bit marks as numbers.

  A mark is a one-bit word; as an extended real it is 0 or 1 (`bit`). Three readings of a mark are settled here:
  its unsigned conversion is `bit` of it; choosing a value where the conjunction of two marks holds, and zero elsewhere,
  multiplies the value by the product of the two marks' numbers; and the 32-bit word product of the two 32-bit
  counts of the marks of two vectors of length 16384, read as a signed integer, is the product of the two sums of
  the marks' numbers: neither count exceeds 16384, their product is at most 2^28, so no word wraps and the sign bit
  is clear.
-/
import proofs.«126922_j69672959475956_1_alg».proof.Proof.Loss
import Idealize.ShloMosaic.Lib.StableHlo.Predicate
import Idealize.ShloMosaic.Lib.ValueIdx
import Idealize.ShloMosaic.PureOps.Ideal.Laws

noncomputable section

namespace Cert.Hinge

open Idealize.ShloMosaic Idealize.ShloMosaic.ValueIdx

/-- A rank-1 index set is its one coordinate's range, so a sum over it is the sum over the coordinate. -/
theorem sum_idx1 {M : Type} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-- The clear mark is the number 0. -/
theorem bit_zero : bit 0#1 = 0 := by
  show (((0 : ℕ) : ℝ) : EReal) = 0
  rw [Nat.cast_zero, EReal.coe_zero]

/-- The set mark is the number 1. -/
theorem bit_one : bit 1#1 = 1 := by
  show (((1 : ℕ) : ℝ) : EReal) = 1
  rw [Nat.cast_one, EReal.coe_one]

/-- The unsigned conversion of a mark is the mark's number. -/
theorem uitofp_bit (b : BitVec 1) : FloatOps.uitofp (F := Ideal) .f32 b = bit b := rfl

/-- Choosing `h` where both marks are set and the zero word's value elsewhere is `h` times the two marks' numbers:
    in the extended reals `h * 0 = 0` and `h * 1 = h` for every `h`, the infinite ones included. -/
theorem select_and_eq_mul (b1 b2 : BitVec 1) (h : EReal) :
    Scalar.select (IntOp.andi b1 b2) h (Ideal.ofBits .f32 0x00000000#32) = h * (bit b1 * bit b2) := by
  rw [Ideal.ofBits_zero_f32]
  rcases BitVec.eq_zero_or_eq_one b1 with rfl | rfl <;> rcases BitVec.eq_zero_or_eq_one b2 with rfl | rfl
  · rw [show IntOp.andi 0#1 0#1 = 0#1 from rfl, select_zero, bit_zero, mul_zero, mul_zero]
  · rw [show IntOp.andi 0#1 1#1 = 0#1 from rfl, select_zero, bit_zero, zero_mul, mul_zero]
  · rw [show IntOp.andi 1#1 0#1 = 0#1 from rfl, select_zero, bit_zero, mul_zero, mul_zero]
  · rw [show IntOp.andi 1#1 1#1 = 1#1 from rfl, select_one, bit_one, mul_one, mul_one]

/-- The real-to-extended-real inclusion commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A mark widened to 32 bits keeps its value. -/
private theorem toNat_setWidth_one (b : BitVec 1) : (b.setWidth 32).toNat = b.toNat := by
  rcases BitVec.eq_zero_or_eq_one b with rfl | rfl <;> rfl

/-- A mark's value is at most 1. -/
private theorem toNat_le_one (b : BitVec 1) : b.toNat ≤ 1 := by
  rcases BitVec.eq_zero_or_eq_one b with rfl | rfl <;> decide

/-- The 32-bit count of a vector of 16384 marks: every index drops to the one scalar index, each widened mark is 0 or
    1, so the word sum does not wrap and is the number of set marks, at most 16384. -/
private theorem count_toNat (P : (⟨1, ![16384]⟩ : Shape).Idx → BitVec 1) (hw : 1 < 32)
    (h : (⟨1, ![16384]⟩ : Shape).ReducesTo [0] ⟨0, ![]⟩) {u : Shape} (hu : 0 < u.numel) (j : (⟨0, ![]⟩ : Shape).Idx) :
    (Host.reduce IntOp.addi (extui 32 P hw) (constantI u 32 0#32) h hu j).toNat = ∑ i : Fin 16384, (P (ix1 i)).toNat
      ∧ ∑ i : Fin 16384, (P (ix1 i)).toNat ≤ 16384 := by
  classical
  have hle : ∑ i : Fin 16384, (P (ix1 i)).toNat ≤ 16384 := by
    have := Finset.sum_le_card_nsmul (Finset.univ : Finset (Fin 16384)) (fun i => (P (ix1 i)).toNat) 1
      (fun i _ => toNat_le_one _)
    simpa using this
  refine ⟨?_, hle⟩
  rw [Host.reduce_eq_fold, Finset.filter_true_of_mem fun i _ => funext fun b => b.elim0]
  have hsum : ∑ i : (⟨1, ![16384]⟩ : Shape).Idx, (extui 32 P hw i).toNat = ∑ i : Fin 16384, (P (ix1 i)).toNat := by
    rw [sum_idx1]
    exact Finset.sum_congr rfl fun i _ => toNat_setWidth_one _
  show (Finset.univ.fold IntOp.addi 0#32 (extui 32 P hw)).toNat = _
  rw [StableHlo.Predicate.toNat_fold_addi _ _ (by rw [hsum]; omega), hsum]

/-- The signed reading of the word product of the two counts is the product of the two sums of the marks' numbers. -/
theorem pairs_count (P N : (⟨1, ![16384]⟩ : Shape).Idx → BitVec 1) (hw : 1 < 32)
    (h : (⟨1, ![16384]⟩ : Shape).ReducesTo [0] ⟨0, ![]⟩) {u : Shape} (hu : 0 < u.numel) (j : (⟨0, ![]⟩ : Shape).Idx) :
    FloatOps.sitofp (F := Ideal) .f32 (IntOp.muli (Host.reduce IntOp.addi (extui 32 P hw) (constantI u 32 0#32) h hu j)
        (Host.reduce IntOp.addi (extui 32 N hw) (constantI u 32 0#32) h hu j))
      = (∑ i : Fin 16384, bit (P (ix1 i))) * (∑ i : Fin 16384, bit (N (ix1 i))) := by
  obtain ⟨hP, hPle⟩ := count_toNat P hw h hu j
  obtain ⟨hN, hNle⟩ := count_toNat N hw h hu j
  generalize Host.reduce IntOp.addi (extui 32 P hw) (constantI u 32 0#32) h hu j = a at hP
  generalize Host.reduce IntOp.addi (extui 32 N hw) (constantI u 32 0#32) h hu j = b at hN
  have hprod : (∑ i : Fin 16384, (P (ix1 i)).toNat) * (∑ i : Fin 16384, (N (ix1 i)).toNat) ≤ 16384 * 16384 :=
    Nat.mul_le_mul hPle hNle
  have hmul : (IntOp.muli a b).toNat = (∑ i : Fin 16384, (P (ix1 i)).toNat) * (∑ i : Fin 16384, (N (ix1 i)).toNat) := by
    show (a * b).toNat = _
    rw [BitVec.toNat_mul, hP, hN]
    exact Nat.mod_eq_of_lt (by omega)
  have hint : (IntOp.muli a b).toInt = ((IntOp.muli a b).toNat : ℤ) :=
    StableHlo.Predicate.toInt_eq_toNat_of_lt (by rw [hmul]; omega)
  show (((IntOp.muli a b).toInt : ℝ) : EReal) = _
  rw [hint, hmul, Int.cast_natCast, Nat.cast_mul, EReal.coe_mul, Nat.cast_sum, Nat.cast_sum, coe_sum, coe_sum]
  rfl

end Cert.Hinge

end
-- ==== Proof.Accumulator.lean ====
/-
  The accumulator's array after the run, and the result the lines after the region compute from it.

  The 16 × 16 grid adds into one [1,1] output block whose block index never moves; the block is written back to its
  array once, after the last point. That one write-back moves the whole block onto the whole array (a [1,1] block
  at block index (0,0) of a [1,1] array), so the array ends holding what the body left after point 255. The seven
  host lines after the region then reshape that array to a scalar and divide it by the product of the two mark
  vectors' sums.
-/
import proofs.«126922_j69672959475956_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.HingeValue

open Cert.KernelIdeal Cert.KernelIdeal.Gen

variable {F : FTy → Type} [FloatOps F]
variable (m : (ℓ : Loc nD τ sig) → Buf (Elt F) ℓ)

/-! ## The output array after the run -/

/-- The grid has 256 points, so 255 names one. -/
private theorem last_lt : 255 < cfg0.N := by rw [show cfg0.N = 256 from N_0]; decide

/-- The grid's last point. -/
private abbrev tLast : Fin cfg0.N := ⟨255, last_lt⟩

/-- The output block's rectangle at the last point starts at the array's origin. -/
private theorem off_last : (fun a => win0_4.index tLast a * main_v16.ty.shape.size a) = fun _ => 0 :=
  funext fun a => by fin_cases a <;> decide +kernel

/-- Any contents of the [1,1] block, written back at the last point, are those contents read through the point's
    rectangle: the rectangle has the array's own sizes at zero offsets, so reading through it reads the array. This
    holds of any contents `X` of the block. -/
private theorem cut_last (X : Vec F S1x1 .f32) :
    (cfg0.win 4).cut (grid0.coords tLast) X = ((cfg0.win 4).blk tLast).view.read (Elt F) X :=
  (Memref.read_access_unit_zero (Elt F) main_v16 off_last (fun a => by rw [congrFun off_last a]; simp) X).symm

/-- The only point that writes the output block back is the last (a flushing point `t` has `t % 256 = 255` and
    `t < 256`), and what it writes is what the body left there, `R`, read through the block's rectangle. -/
private theorem flushed_last (c : Dev nD) (R : Vec F S1x1 .f32) (hR : (dats m 0 c).after 4 tLast = R)
    (t : Fin cfg0.N) (hf : (cfg0.win 4).flush t = true) :
    (dats m 0 c).flushed 4 t = ((cfg0.win 4).blk t).view.read (Elt F) R := by
  have hN : cfg0.N = 256 := N_0
  have ht : t.val = 255 := by
    have h1 := (flush0_4 t).mp hf
    have h2 := t.isLt
    omega
  obtain rfl : t = tLast := Fin.ext ht
  show (cfg0.win 4).cut (grid0.coords tLast) ((dats m 0 c).after 4 tLast) = _
  rw [hR]
  exact cut_last R

/-- Every index of the [1,1] array lies in the last point's rectangle: on each axis the rectangle starts at 0 and has
    extent 1, and the coordinate is below 1. -/
private theorem cover_last (i : S1x1.Idx) : i ∈ ((cfg0.win 4).blk tLast).view.set := by
  show i ∈ ((View.whole main_v16).slice (win0_4.rect tLast)).set
  rw [View.set_slice_whole, Rect.mem_set_unit]
  intro a
  have hi : (i a : Nat) < 1 := by
    have := (i a).isLt
    fin_cases a <;> exact this
  show win0_4.index tLast a * win0_4.size a ≤ (i a : Nat)
    ∧ (i a : Nat) < win0_4.index tLast a * win0_4.size a + win0_4.xsize (grid0.coords tLast) a
  have h0 : win0_4.index tLast a * win0_4.size a = 0 := by fin_cases a <;> decide +kernel
  have h1 : win0_4.xsize (grid0.coords tLast) a = 1 := by fin_cases a <;> decide +kernel
  rw [h0, h1]; omega

/-- The output array ends holding what the body left after the last point: that point's write-back is the only one,
    and its block covers the array. -/
theorem arr_final (c : Dev nD) :
    (dats m 0 c).arrAt 4 cfg0.N
      = (outsAt0 m c 255 (by rw [show cfg0.N = 256 from N_0]; decide) : Vec F S1x1 .f32) := by
  have hR : (dats m 0 c).after 4 tLast = outsAt0 m c 255 last_lt := after0_4 m c tLast
  generalize outsAt0 m c 255 last_lt = R at hR
  exact (dats m 0 c).arrAt_eq_of_cover 4 R (flushed_last m c R hR) fun i =>
    ⟨tLast, (flush0_4 tLast).mpr rfl, cover_last i⟩

/-! ## The lines after the region -/

/-- The result buffer after the seven host lines that follow the region: the output array, as the region leaves it,
    reshaped to a scalar, over the product of the sums of the two mark vectors, which the region does not touch (they
    are no window's array, so they read as the region found them). -/
theorem tail_value (c : Dev nD) : Pipeline.afterTail₀ cfgs (dats m) 0 (V0 m) [hostOps1] c main_v21
      = Host.divf (shapeCast S_ ((dats m 0 c).arrAt 4 cfg0.N : Vec F S1x1 .f32) shapeCasts_S1x1_S_)
          (mulf (Host.reduceAdd (V m c main_v8 : S16384.Idx → Elt F .f32) (constant S_ .f32 0x00000000#32) reducesTo_S16384_S_d0 h_S_)
                (Host.reduceAdd (V m c main_v11 : S16384.Idx → Elt F .f32) (constant S_ .f32 0x00000000#32) reducesTo_S16384_S_d0 h_S_)) := by
  unfold Pipeline.afterTail₀
  show StableHlo.after hostOps1 _ (Proc.devRef .tc main_v21) = _
  after_results
  rw [Pipeline.withArrays_arr spec0 launch0.win.arr_inj c _ _ 4,
    Pipeline.withArrays_of_ne _ c (V0 m c) _ main_v8 (by decide : ∀ w, Pipeline.arrRef spec0 w ≠ main_v8),
    Pipeline.withArrays_of_ne _ c (V0 m c) _ main_v11 (by decide : ∀ w, Pipeline.arrRef spec0 w ≠ main_v11)]
  rfl

end Cert.KernelIdeal.HingeValue

end
-- ==== Proof.KernelValue.lean ====
/-
  The kernel's value: what the result buffer holds after the idealized kernel's run.

  Before the region the host lines take the sigmoid s of the scores and the two marks P ("target is 1") and N ("target
  is 0") as 0/1 numbers, and lay each as a column [16384, 1] and a row [1, 16384]. Grid point t = 16·a + b of the
  16 × 16 grid is handed rows 1024·a … 1024·a + 1023 of the columns and columns 1024·b … 1024·b + 1023 of the rows,
  and adds to the one-word accumulator the tile sum

      ∑ p q, max(margin − (s(1024a + p) − s(1024b + q)), 0) · (P(1024a + p) · N(1024b + q)),

  having first stored a zero at the first point. So after point n the accumulator holds the tile sums of points 0 … n
  (induction on n; addition of extended reals is associative), after the last point the sum over all 16384 × 16384
  pairs (the tiling law), and the host lines after the region divide that by (∑ P) · (∑ N): the loss.
-/
import proofs.«126922_j69672959475956_1_alg».proof.Proof.Gen.KernelIdeal.Frame
import proofs.«126922_j69672959475956_1_alg».proof.Proof.Pieces
import proofs.«126922_j69672959475956_1_alg».proof.Proof.Marks
import proofs.«126922_j69672959475956_1_alg».proof.Proof.Accumulator
import proofs.«126922_j69672959475956_1_alg».proof.Proof.Tiles
import proofs.«126922_j69672959475956_1_alg».proof.Proof.Loss
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.HingeValue

open Cert.Hinge (hinge margin tileIdx tileRow tileCol)

open Cert.KernelIdeal Cert.KernelIdeal.Gen

variable {F : FTy → Type} [FloatOps F]
variable (m : (ℓ : Loc nD τ sig) → Buf (Elt F) ℓ) (ρ : Dev nD → PrngReg)

/-! ## The arrays the region finds -/

/-- The sigmoid of the scores, as both programs spell it: 1 / (1 + exp (−x)). -/
abbrev sigm (x : FVec F S16384 .f32) : FVec F S16384 .f32 :=
  Host.divf (broadcastInDim S16384 ![] bcast_S_S16384 (constant S_ .f32 0x3F800000#32))
    (addf (broadcastInDim S16384 ![] bcast_S_S16384 (constant S_ .f32 0x3F800000#32)) (Host.exp (Host.negf x)))

/-- The mark "the target is the word `w`". -/
abbrev markOf (w : BitVec 32) (tg : IVec S16384 32) : IVec S16384 1 :=
  cmpi .eq tg (broadcastInDim S16384 ![] bcast_S_S16384 (constantI S_ 32 w))

theorem V_v12 (c : Dev nD) : (V m c main_v12 : S16384x1.Idx → Elt F .f32)
    = shapeCast S16384x1 (sigm (m ((c : Thread nD τ).loc main_arg0))) shapeCasts_S16384_S16384x1 := by
  show StableHlo.after hostOps0 (fun b => m (c, b)) (Proc.devRef .tc main_v12) = _
  after_results; rfl
theorem V_v13 (c : Dev nD) : (V m c main_v13 : S1x16384.Idx → Elt F .f32)
    = shapeCast S1x16384 (sigm (m ((c : Thread nD τ).loc main_arg0))) shapeCasts_S16384_S1x16384 := by
  show StableHlo.after hostOps0 (fun b => m (c, b)) (Proc.devRef .tc main_v13) = _
  after_results; rfl
theorem V_v14 (c : Dev nD) : (V m c main_v14 : S16384x1.Idx → Elt F .f32)
    = shapeCast S16384x1 (uitofp .f32 (markOf 1#32 (m ((c : Thread nD τ).loc main_arg1)))) shapeCasts_S16384_S16384x1 := by
  show StableHlo.after hostOps0 (fun b => m (c, b)) (Proc.devRef .tc main_v14) = _
  after_results; rfl
theorem V_v15 (c : Dev nD) : (V m c main_v15 : S1x16384.Idx → Elt F .f32)
    = shapeCast S1x16384 (uitofp .f32 (markOf 0#32 (m ((c : Thread nD τ).loc main_arg1)))) shapeCasts_S16384_S1x16384 := by
  show StableHlo.after hostOps0 (fun b => m (c, b)) (Proc.devRef .tc main_v15) = _
  after_results; rfl
theorem V_v8 (c : Dev nD) : (V m c main_v8 : S16384.Idx → Elt F .f32)
    = uitofp .f32 (markOf 1#32 (m ((c : Thread nD τ).loc main_arg1))) := by
  show StableHlo.after hostOps0 (fun b => m (c, b)) (Proc.devRef .tc main_v8) = _
  after_results
theorem V_v11 (c : Dev nD) : (V m c main_v11 : S16384.Idx → Elt F .f32)
    = uitofp .f32 (markOf 0#32 (m ((c : Thread nD τ).loc main_arg1))) := by
  show StableHlo.after hostOps0 (fun b => m (c, b)) (Proc.devRef .tc main_v11) = _
  after_results

/-! ## Which rows and columns a grid point's slivers are -/

/-- The row slivers' block index at a grid point is its tile row, -/
theorem index_rows : ∀ t : Fin cfg0.N, (win0_0.index t 0 = t.val / 16 ∧ win0_0.index t 1 = 0)
    ∧ (win0_2.index t 0 = t.val / 16 ∧ win0_2.index t 1 = 0) :=
  (by decide +kernel : ∀ t : Fin grid0.N, (win0_0.index t 0 = t.val / 16 ∧ win0_0.index t 1 = 0)
    ∧ (win0_2.index t 0 = t.val / 16 ∧ win0_2.index t 1 = 0))
/-- and the column slivers' its tile column. -/
theorem index_cols : ∀ t : Fin cfg0.N, (win0_1.index t 0 = 0 ∧ win0_1.index t 1 = t.val % 16)
    ∧ (win0_3.index t 0 = 0 ∧ win0_3.index t 1 = t.val % 16) :=
  (by decide +kernel : ∀ t : Fin grid0.N, (win0_1.index t 0 = 0 ∧ win0_1.index t 1 = t.val % 16)
    ∧ (win0_3.index t 0 = 0 ∧ win0_3.index t 1 = t.val % 16))

/-- A grid point as a number below 256. -/
abbrev pt (t : Fin cfg0.N) : Fin 256 := Fin.cast N_0 t

/-- Row p of the row sliver of window 0 at point t is row 1024·(t / 16) + p of its array; -/
theorem blk0_at (c : Dev nD) (t : Fin cfg0.N) (p : Fin 1024) :
    (iblk m c 0 t : Vec F S1024x1 .f32) (ix2 p (0 : Fin 1))
      = (V m c main_v12 : S16384x1.Idx → Elt F .f32) (ix2 (tileIdx (tileRow (pt t)) p) (0 : Fin 1)) := by
  unfold iblk
  rw [View.read_apply]
  show V m c main_v12 _ = V m c main_v12 _
  congr 1
  funext a
  apply Fin.ext
  match a with
  | ⟨0, _⟩ =>
    show win0_0.index t 0 * 1024 + 1 * p.val = 1024 * (t.val / 16) + p.val
    rw [(index_rows t).1.1]; omega
  | ⟨1, _⟩ =>
    show win0_0.index t 1 * 1 + 1 * 0 = 0
    rw [(index_rows t).1.2]
/-- likewise the marks' row sliver (window 2); -/
theorem blk2_at (c : Dev nD) (t : Fin cfg0.N) (p : Fin 1024) :
    (iblk m c 2 t : Vec F S1024x1 .f32) (ix2 p (0 : Fin 1))
      = (V m c main_v14 : S16384x1.Idx → Elt F .f32) (ix2 (tileIdx (tileRow (pt t)) p) (0 : Fin 1)) := by
  unfold iblk
  rw [View.read_apply]
  show V m c main_v14 _ = V m c main_v14 _
  congr 1
  funext a
  apply Fin.ext
  match a with
  | ⟨0, _⟩ =>
    show win0_2.index t 0 * 1024 + 1 * p.val = 1024 * (t.val / 16) + p.val
    rw [(index_rows t).2.1]; omega
  | ⟨1, _⟩ =>
    show win0_2.index t 1 * 1 + 1 * 0 = 0
    rw [(index_rows t).2.2]
/-- column q of the column sliver of window 1 is column 1024·(t % 16) + q of its array; -/
theorem blk1_at (c : Dev nD) (t : Fin cfg0.N) (q : Fin 1024) :
    (iblk m c 1 t : Vec F S1x1024 .f32) (ix2 (0 : Fin 1) q)
      = (V m c main_v13 : S1x16384.Idx → Elt F .f32) (ix2 (0 : Fin 1) (tileIdx (tileCol (pt t)) q)) := by
  unfold iblk
  rw [View.read_apply]
  show V m c main_v13 _ = V m c main_v13 _
  congr 1
  funext a
  apply Fin.ext
  match a with
  | ⟨0, _⟩ =>
    show win0_1.index t 0 * 1 + 1 * 0 = 0
    rw [(index_cols t).1.1]
  | ⟨1, _⟩ =>
    show win0_1.index t 1 * 1024 + 1 * q.val = 1024 * (t.val % 16) + q.val
    rw [(index_cols t).1.2]; omega
/-- likewise the marks' column sliver (window 3). -/
theorem blk3_at (c : Dev nD) (t : Fin cfg0.N) (q : Fin 1024) :
    (iblk m c 3 t : Vec F S1x1024 .f32) (ix2 (0 : Fin 1) q)
      = (V m c main_v15 : S1x16384.Idx → Elt F .f32) (ix2 (0 : Fin 1) (tileIdx (tileCol (pt t)) q)) := by
  unfold iblk
  rw [View.read_apply]
  show V m c main_v15 _ = V m c main_v15 _
  congr 1
  funext a
  apply Fin.ext
  match a with
  | ⟨0, _⟩ =>
    show win0_3.index t 0 * 1 + 1 * 0 = 0
    rw [(index_cols t).2.1]
  | ⟨1, _⟩ =>
    show win0_3.index t 1 * 1024 + 1 * q.val = 1024 * (t.val % 16) + q.val
    rw [(index_cols t).2.2]; omega

/-! ## At the ideal values: the three vectors, and the arrays read at an index -/

section AtIdeal

open Cert.Hinge (bit pairTerm loss)

variable (mI : (ℓ : Loc nD τ sig) → Buf (Elt Ideal) ℓ)

/-- The sigmoids of the scores, -/
abbrev scores (c : Dev nD) : Fin 16384 → EReal := fun k => sigm (F := Ideal) (mI ((c : Thread nD τ).loc main_arg0)) (ix1 k)
/-- the marks "the target is 1" -/
abbrev posMark (c : Dev nD) : Fin 16384 → BitVec 1 := fun k => markOf 1#32 (mI ((c : Thread nD τ).loc main_arg1)) (ix1 k)
/-- and "the target is 0". -/
abbrev negMark (c : Dev nD) : Fin 16384 → BitVec 1 := fun k => markOf 0#32 (mI ((c : Thread nD τ).loc main_arg1)) (ix1 k)

/-- A vector of length 16384 laid as a column reads, at (i, 0), the vector at i; -/
theorem col_at {α : Type} (v : S16384.Idx → α) (h : S16384.ShapeCasts S16384x1) (i : Fin 16384) :
    shapeCast S16384x1 v h (ix2 i (0 : Fin 1)) = v (ix1 i) :=
  shapeCast_apply v h _ (ix1 i) (by
    rw [Shape.rowMajor_val_two, Shape.rowMajor_val_one]
    show i.val = i.val * 1 + 0
    omega)
/-- laid as a row, at (0, i), the same. -/
theorem row_at {α : Type} (v : S16384.Idx → α) (h : S16384.ShapeCasts S1x16384) (i : Fin 16384) :
    shapeCast S1x16384 v h (ix2 (0 : Fin 1) i) = v (ix1 i) :=
  shapeCast_a_1a_apply v h 0 i

theorem v12_at (c : Dev nD) (i : Fin 16384) :
    (V mI c main_v12 : S16384x1.Idx → EReal) (ix2 i (0 : Fin 1)) = scores mI c i :=
  (congrFun (V_v12 mI c) _).trans (col_at _ _ i)
theorem v13_at (c : Dev nD) (i : Fin 16384) :
    (V mI c main_v13 : S1x16384.Idx → EReal) (ix2 (0 : Fin 1) i) = scores mI c i :=
  (congrFun (V_v13 mI c) _).trans (row_at _ _ i)
theorem v14_at (c : Dev nD) (i : Fin 16384) :
    (V mI c main_v14 : S16384x1.Idx → EReal) (ix2 i (0 : Fin 1)) = bit (posMark mI c i) :=
  (congrFun (V_v14 mI c) _).trans (col_at _ _ i)
theorem v15_at (c : Dev nD) (i : Fin 16384) :
    (V mI c main_v15 : S1x16384.Idx → EReal) (ix2 (0 : Fin 1) i) = bit (negMark mI c i) :=
  (congrFun (V_v15 mI c) _).trans (row_at _ _ i)

/-! ## One grid point's tile sum, and the running total -/

/-- The pair terms of the tile of grid point t, summed. -/
def tileSum (c : Dev nD) (t : Fin cfg0.N) : EReal :=
  ∑ p : Fin 1024, ∑ q : Fin 1024,
    pairTerm (scores mI c) (posMark mI c) (negMark mI c) (tileIdx (tileRow (pt t)) p) (tileIdx (tileCol (pt t)) q)

/-- At point t the body adds the tile's sum to what the accumulator held. -/
theorem pay_at_point (c : Dev nD) (t : Fin cfg0.N) (xo : Vec Ideal S1x1 .f32) (j : S1x1.Idx) :
    k0_pay2 (F := Ideal) (iblk mI c 0 t) (iblk mI c 1 t) (iblk mI c 2 t) (iblk mI c 3 t) xo j = xo j + tileSum mI c t := by
  refine (pay2_apply (iblk mI c 0 t) (iblk mI c 1 t) (iblk mI c 2 t) (iblk mI c 3 t) xo j).trans ?_
  unfold tileSum
  refine congrArg (xo j + ·) ?_
  refine Finset.sum_congr rfl fun p _ => Finset.sum_congr rfl fun q _ => ?_
  have e0 := (blk0_at mI c t p).trans (v12_at mI c _)
  have e1 := (blk1_at mI c t q).trans (v13_at mI c _)
  have e2 := (blk2_at mI c t p).trans (v14_at mI c _)
  have e3 := (blk3_at mI c t q).trans (v15_at mI c _)
  rw [e0, e1, e2, e3]
  rfl

/-- The tile sum of point number k, zero past the grid. -/
def tileSumN (c : Dev nD) (k : ℕ) : EReal := if h : k < cfg0.N then tileSum mI c ⟨k, h⟩ else 0

/-- THE ACCUMULATION: after point n the accumulator holds the tile sums of points 0 … n, by induction on the point
    (the first point starts from the zero it has just stored, every later one from what the point before left). -/
theorem outsAt_eq (c : Dev nD) : ∀ (n : ℕ) (h : n < cfg0.N) (j : S1x1.Idx),
    outsAt0 mI c n h j = ∑ k ∈ Finset.range (n + 1), tileSumN mI c k
  | 0, h, j => by
    refine (congrFun ((outsAt0_A mI c ⟨0, h⟩ rfl).trans (out_A ..)) j).trans ?_
    refine (pay_at_point mI c ⟨0, h⟩ _ j).trans ?_
    rw [Finset.sum_range_one]
    show Ideal.ofBits .f32 0x00000000#32 + _ = _
    rw [Ideal.ofBits_zero_f32, zero_add]
    unfold tileSumN
    rw [dif_pos h]
  | n + 1, h, j => by
    have hN : cfg0.N = 256 := N_0
    have hB : ¬(⟨n + 1, h⟩ : Fin cfg0.N).val % 256 = 0 := by dsimp only; omega
    rw [outsAt0_B mI c ⟨n + 1, h⟩ hB, out_B]
    refine (pay_at_point mI c ⟨n + 1, h⟩ _ j).trans ?_
    show outsAt0 mI c n _ j + _ = _
    rw [outsAt_eq c n _ j, Finset.sum_range_succ _ (n + 1)]
    congr 1
    unfold tileSumN
    rw [dif_pos h]

/-- After the last point the accumulator holds the sum over the whole square (the tiling law). -/
theorem acc_total (c : Dev nD) (h : 255 < cfg0.N) (j : S1x1.Idx) :
    outsAt0 mI c 255 h j = ∑ i : Fin 16384, ∑ k : Fin 16384, pairTerm (scores mI c) (posMark mI c) (negMark mI c) i k := by
  rw [outsAt_eq mI c 255 h j, ← Fin.sum_univ_eq_sum_range (fun k => tileSumN mI c k) 256, ← Cert.Hinge.sum_tiles]
  refine Finset.sum_congr rfl fun t _ => ?_
  unfold tileSumN
  rw [dif_pos (lt_of_lt_of_eq t.isLt N_0.symm)]
  rfl

/-- The host's sum of a vector of length 16384 from the zero word is the sum of its entries. -/
theorem total_eq (x : FVec Ideal S16384 .f32) (i : S_.Idx) :
    Host.reduceAdd x (constant S_ .f32 0x00000000#32) reducesTo_S16384_S_d0 h_S_ i = ∑ k : Fin 16384, x (ix1 k) := by
  simp only [Host.reduceAdd, Ideal.hostReduceAdd_def]
  rw [Ideal.hostReduceAdd_total reducesTo_S16384_S_d0 (fun b => b.elim0) x _ i, Cert.Hinge.sum_idx1]
  show Ideal.ofBits .f32 0x00000000#32 + _ = _
  rw [Ideal.ofBits_zero_f32, zero_add]

end AtIdeal

/-! ## The kernel's result -/

section Result

open Cert.Hinge (bit pairTerm loss)

variable (mI : (ℓ : Loc nD τ sig) → Buf (Elt Ideal) ℓ)

/-- A quotient by a product, at an index. -/
theorem divf_mul_at (A B C : FVec Ideal S_ .f32) (i : S_.Idx) :
    Host.divf A (mulf B C) i = Ideal.div (A i) (B i * C i) := rfl

/-- THE KERNEL'S RESULT at the ideal values: the accumulator after the last point, the sum over the whole square, over the
    product of the two counts the host lines after the region take: the loss of the three vectors. -/
theorem ker_eq_loss (c : Dev nD) (i : S_.Idx) :
    Pipeline.afterTail₀ cfgs (dats mI) 0 (V0 mI) [hostOps1] c main_v21 i
      = loss (scores mI c) (posMark mI c) (negMark mI c) := by
  refine (congrFun (tail_value mI c) i).trans ?_
  have hnum : shapeCast S_ ((dats mI 0 c).arrAt 4 cfg0.N : Vec Ideal S1x1 .f32) shapeCasts_S1x1_S_ i
      = ∑ a : Fin 16384, ∑ b : Fin 16384, pairTerm (scores mI c) (posMark mI c) (negMark mI c) a b := by
    unfold shapeCast
    rw [arr_final]
    exact acc_total mI c _ _
  have hP : Host.reduceAdd (F := Ideal) (V mI c main_v8 : FVec Ideal S16384 .f32) (constant S_ .f32 0x00000000#32) reducesTo_S16384_S_d0 h_S_ i
      = ∑ k : Fin 16384, bit (posMark mI c k) := by
    rw [V_v8]; exact total_eq _ i
  have hN : Host.reduceAdd (F := Ideal) (V mI c main_v11 : FVec Ideal S16384 .f32) (constant S_ .f32 0x00000000#32) reducesTo_S16384_S_d0 h_S_ i
      = ∑ k : Fin 16384, bit (negMark mI c k) := by
    rw [V_v11]; exact total_eq _ i
  refine (divf_mul_at _ _ _ i).trans ?_
  rw [hnum, hP, hN]
  rfl

/-- The kernel's run, read: the result at the loss, the arguments unchanged. -/
theorem run (ρ : Dev nD → PrngReg) :
    θ_run defs (onTc (τ := τ) (main (F := Ideal))) ⟨mI, fun _ => 0, ρ⟩ fun r => ∀ c : Dev nD,
      r.2.mem ((c.tc : Thread nD τ).loc main_v21) = (fun _ => loss (scores mI c) (posMark mI c) (negMark mI c))
      ∧ r.2.mem ((c.tc : Thread nD τ).loc main_arg0) = mI ((c.tc : Thread nD τ).loc main_arg0)
      ∧ r.2.mem ((c.tc : Thread nD τ).loc main_arg1) = mI ((c.tc : Thread nD τ).loc main_arg1) :=
  (θ_run defs _ _).mono (fun _ h c =>
    ⟨((h c).2 main_v21 (Pipeline.mem_restRefs_of main_v21 (by decide) (by decide))).trans (funext fun i => ker_eq_loss mI c i),
     ((h c).2 main_arg0 (Pipeline.mem_restRefs_of main_arg0 (by decide) (by decide))).trans (W_main_arg0 mI (dats mI) c),
     ((h c).2 main_arg1 (Pipeline.mem_restRefs_of main_arg1 (by decide) (by decide))).trans (W_main_arg1 mI (dats mI) c)⟩)
    (run_main mI ρ)

end Result

end Cert.KernelIdeal.HingeValue

end
-- ==== Proof.RefValue.lean ====
/-
  The reference's result is the loss.

  Read one operation at a time, the reference broadcasts the sigmoids down the rows and along the columns of a
  16384 × 16384 square, takes at (a, b) the hinge of the pair (score a, score b), keeps it where a is marked by the
  first mark vector and b by the second and puts zero elsewhere, sums the square, and divides by the signed
  reading of the word product of the two marks' counts. Each element of the square is therefore the loss's pair
  term, the sum is the double sum over the pairs, and the divisor is the product of the two counts.
-/
import proofs.«126922_j69672959475956_1_alg».proof.Proof.Marks
import proofs.«126922_j69672959475956_1_alg».proof.Proof.Gen.ReferenceIdeal.Read

noncomputable section

namespace Cert.Hinge

open Cert.ReferenceIdeal Cert.ReferenceIdeal.Read
open Idealize.ShloMosaic Idealize.ShloMosaic.ValueIdx

/-! ## The composed broadcasts' indices at (a, b): the row coordinate, resp. the column coordinate -/

private theorem idx_row_f (a b : Fin 16384) : idx_main_v10 (idx_main_v12 (ix2 a b)) = ix1 a := by
  funext d; match d with | ⟨0, _⟩ => rfl
private theorem idx_col_f (a b : Fin 16384) : idx_main_v11 (idx_main_v13 (ix2 a b)) = ix1 b := by
  funext d; match d with | ⟨0, _⟩ => rfl
private theorem idx_row_m (a b : Fin 16384) : idx_main_v18 (idx_main_v20 (ix2 a b)) = ix1 a := by
  funext d; match d with | ⟨0, _⟩ => rfl
private theorem idx_col_m (a b : Fin 16384) : idx_main_v19 (idx_main_v21 (ix2 a b)) = ix1 b := by
  funext d; match d with | ⟨0, _⟩ => rfl

section
variable (x0 : (⟨S16384, .f32⟩ : BufTy).Contents (Elt Ideal)) (x1 : (⟨S16384, .i32⟩ : BufTy).Contents (Elt Ideal))

/-- The score broadcast down the rows reads the score of the row. -/
private theorem v12_at (a b : Fin 16384) : val_main_v12 (F := Ideal) x0 (ix2 a b) = val_main_v5 (F := Ideal) x0 (ix1 a) := by
  rw [val_main_v12_apply, val_main_v10_apply, idx_row_f]
/-- The score broadcast along the columns reads the score of the column. -/
private theorem v13_at (a b : Fin 16384) : val_main_v13 (F := Ideal) x0 (ix2 a b) = val_main_v5 (F := Ideal) x0 (ix1 b) := by
  rw [val_main_v13_apply, val_main_v11_apply, idx_col_f]
/-- The first mark broadcast down the rows reads the mark of the row. -/
private theorem v20_at (a b : Fin 16384) : val_main_v20 (F := Ideal) x1 (ix2 a b) = val_main_v7 (F := Ideal) x1 (ix1 a) := by
  rw [val_main_v20_apply, val_main_v18_apply, idx_row_m]
/-- The second mark broadcast along the columns reads the mark of the column. -/
private theorem v21_at (a b : Fin 16384) : val_main_v21 (F := Ideal) x1 (ix2 a b) = val_main_v9 (F := Ideal) x1 (ix1 b) := by
  rw [val_main_v21_apply, val_main_v19_apply, idx_col_m]

/-- The clamped margin shortfall at (a, b) is the hinge of the pair of scores. -/
private theorem v17_at (a b : Fin 16384) :
    val_main_v17 (F := Ideal) x0 (ix2 a b)
      = hinge (val_main_v5 (F := Ideal) x0 (ix1 a)) (val_main_v5 (F := Ideal) x0 (ix1 b)) := by
  rw [val_main_v17_apply, val_main_v16_apply, val_main_v14_apply, val_main_v15_apply, val_main_cst_2_apply,
    val_main_call0_v0_apply, val_main_call0_cst_apply, v12_at, v13_at]
  show max (Ideal.ofBits .f32 0x3E99999A#32 - (_ - _)) (Ideal.ofBits .f32 0x00000000#32) = _
  rw [Ideal.ofBits_zero_f32]
  rfl

/-- The masked square at (a, b) is the loss's pair term. -/
private theorem v28_at (a b : Fin 16384) :
    val_main_v28 (F := Ideal) x0 x1 (ix2 a b)
      = pairTerm (fun k => val_main_v5 (F := Ideal) x0 (ix1 k)) (fun k => val_main_v7 (F := Ideal) x1 (ix1 k))
          (fun k => val_main_v9 (F := Ideal) x1 (ix1 k)) a b := by
  rw [val_main_v28_apply, val_main_v22_apply, v20_at, v21_at, v17_at, val_main_call1_v1_apply,
    val_main_call1_v0_apply, val_main_cst_5_apply]
  exact select_and_eq_mul _ _ _

end

/-- The reference's scalar result is the loss of the sigmoids and the two mark vectors. -/
theorem ref_eq_loss (x0 : (⟨S16384, .f32⟩ : BufTy).Contents (Elt Ideal)) (x1 : (⟨S16384, .i32⟩ : BufTy).Contents (Elt Ideal))
    (i : S_.Idx) :
    val_main_v31 (F := Ideal) x0 x1 i
      = loss (fun k => val_main_v5 (F := Ideal) x0 (ix1 k)) (fun k => val_main_v7 (F := Ideal) x1 (ix1 k))
          (fun k => val_main_v9 (F := Ideal) x1 (ix1 k)) := by
  have hnum : val_main_v29 (F := Ideal) x0 x1 i
      = ∑ a : Fin 16384, ∑ b : Fin 16384,
          pairTerm (fun k => val_main_v5 (F := Ideal) x0 (ix1 k)) (fun k => val_main_v7 (F := Ideal) x1 (ix1 k))
            (fun k => val_main_v9 (F := Ideal) x1 (ix1 k)) a b := by
    rw [val_main_v29_apply, val_main_cst_6_apply]
    show Ideal.ofBits .f32 0x00000000#32 + _ = _
    rw [Ideal.ofBits_zero_f32, zero_add, sum_idx2]
    exact Finset.sum_congr rfl fun a _ => Finset.sum_congr rfl fun b _ => v28_at x0 x1 a b
  have hden : val_main_v30 (F := Ideal) x1 i
      = (∑ a : Fin 16384, bit (val_main_v7 (F := Ideal) x1 (ix1 a))) * (∑ b : Fin 16384, bit (val_main_v9 (F := Ideal) x1 (ix1 b))) := by
    rw [val_main_v30_apply, val_main_v27_apply]
    exact pairs_count (val_main_v7 (F := Ideal) x1) (val_main_v9 (F := Ideal) x1) _ _ _ i
  rw [val_main_v31_apply, hnum, hden]
  rfl

end Cert.Hinge

end
-- ==== Proof.lean ====
/-
  The certificate of the masked pairwise hinge loss.

  Both programs compute, from scores x and integer targets, the loss

      ( ∑ i j, max(margin − (s i − s j), 0) · [target i = 1] · [target j = 0] ) / ( #{target = 1} · #{target = 0} ),

  with s the sigmoid of x. The kernel takes the numerator tile by tile on a 16 × 16 grid, masking by a product of
  0/1 numbers, and the two counts as float sums; the reference takes it in one sum over the whole square, masking by a
  select on the conjunction of the two marks, and the counts as 32-bit integer sums whose word product it converts.
  Over the extended reals the two agree on every input: a product with a 0/1 number is the select (0 · h = 0 for
  every h, the infinities included), sums may be regrouped freely, and the integer counts are at most 16384, so
  neither they nor their product wrap. Nothing here needs the inputs finite.

  The three frames are the generated ones (the reference's is its run with the result dropped); the idealization
  rewrote no operation; the value claim joins the kernel's run (Proof/KernelValue.lean) and the reference's
  (Proof/RefValue.lean) at the common function `Cert.Hinge.loss` (Proof/Loss.lean).
-/
import proofs.«126922_j69672959475956_1_alg».proof.Defs
import proofs.«126922_j69672959475956_1_alg».proof.Proof.Gen.Kernel
import proofs.«126922_j69672959475956_1_alg».proof.Proof.Gen.Kernel.Skeleton
import proofs.«126922_j69672959475956_1_alg».proof.Proof.Gen.Kernel.Launch
import proofs.«126922_j69672959475956_1_alg».proof.Proof.Gen.Kernel.Points
import proofs.«126922_j69672959475956_1_alg».proof.Proof.Gen.Kernel.Frame
import proofs.«126922_j69672959475956_1_alg».proof.Proof.Gen.KernelIdeal
import proofs.«126922_j69672959475956_1_alg».proof.Proof.Gen.KernelIdeal.Skeleton
import proofs.«126922_j69672959475956_1_alg».proof.Proof.Gen.KernelIdeal.Launch
import proofs.«126922_j69672959475956_1_alg».proof.Proof.Gen.KernelIdeal.Points
import proofs.«126922_j69672959475956_1_alg».proof.Proof.Gen.KernelIdeal.Frame
import proofs.«126922_j69672959475956_1_alg».proof.Proof.Gen.ReferenceIdeal
import proofs.«126922_j69672959475956_1_alg».proof.Proof.Gen.Pre_finite_inputs
import proofs.«126922_j69672959475956_1_alg».proof.Proof.Gen.ReferenceIdeal.Run
import proofs.«126922_j69672959475956_1_alg».proof.Proof.Gen.ReferenceIdeal.Read
import proofs.«126922_j69672959475956_1_alg».proof.Proof.KernelValue
import proofs.«126922_j69672959475956_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values the kernel's result is the loss of (sigmoid of the scores, the two marks) and so is the
    reference's, of arguments that agree. -/
theorem algebraic : Cert.algebraic_KernelIdeal_ReferenceIdeal := by
  intro m ρ m' ρ' _ hagree
  refine ⟨fun c => fun _ => Cert.Hinge.loss (Cert.KernelIdeal.HingeValue.scores m c)
    (Cert.KernelIdeal.HingeValue.posMark m c) (Cert.KernelIdeal.HingeValue.negMark m c),
    Cert.KernelIdeal.HingeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq]
  funext i
  rw [Cert.Hinge.ref_eq_loss, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
